-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S1600000 32) (main_arg2 : IVec S1600000 32) (main_arg3 : FVec F S256x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 47
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S1x64, .f32⟩
  | .hbm, ⟨46, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x256, .f32⟩
  | .hbm, ⟨31, _⟩ => ⟨S100000x256, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Spec.lean ====
/-
  The two dense stages of the graph convolution, index by index over the extended reals.

  `proj h s W` is the projection of the row-scaled features: entry (p, q) is the sum over k of (h (p, k) * s (p, 0)) * W (k, q),
  the scale `s` a column with one entry per node.  `fin g s b` is the closing stage: entry (p, q) is the larger of
  g (p, q) * s (p, 0) + b (0, q) and zero, the bias `b` a row.
  Also here: a column broadcast along its rows, read at an index.
-/
import Idealize.ShloMosaic.PureOps.Ideal.Laws
import Idealize.ShloMosaic.Lib.ValueIdx
import Idealize.ShloMosaic.Lib.ValueLayout
import Idealize.ShloMosaic.Lib.Pipeline.Value

noncomputable section

namespace Cert.GraphConv

open Idealize.ShloMosaic Idealize.ShloMosaic.ValueIdx

/-- An `[n, 1]` column broadcast to `[n, k]` reads, at `(p, c)`, the column's entry of row `p`. -/
theorem broadcastTo_col_apply {α : Type} {n k : ℕ} (v : (⟨2, ![n, 1]⟩ : Shape).Idx → α)
    (h : (⟨2, ![n, 1]⟩ : Shape).Broadcasts ⟨2, ![n, k]⟩) (p : Fin n) (c : Fin k) :
    broadcastTo ⟨2, ![n, k]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- The projection of the row-scaled features. -/
def proj {n d e : ℕ} (h : FVec Ideal ⟨2, ![n, d]⟩ .f32) (s : FVec Ideal ⟨2, ![n, 1]⟩ .f32) (W : FVec Ideal ⟨2, ![d, e]⟩ .f32) :
    FVec Ideal ⟨2, ![n, e]⟩ .f32 :=
  fun i => ∑ k : Fin d, (h (ix2 (i 0) k) * s (ix2 (i 0) (0 : Fin 1))) * W (ix2 k (i 1))

theorem proj_apply {n d e : ℕ} (h : FVec Ideal ⟨2, ![n, d]⟩ .f32) (s : FVec Ideal ⟨2, ![n, 1]⟩ .f32) (W : FVec Ideal ⟨2, ![d, e]⟩ .f32)
    (p : Fin n) (q : Fin e) :
    proj h s W (ix2 p q) = ∑ k : Fin d, (h (ix2 p k) * s (ix2 p (0 : Fin 1))) * W (ix2 k q) := rfl

/-- The closing stage: scale each row, add the bias row, keep the non-negative part. -/
def fin {n e : ℕ} (g : FVec Ideal ⟨2, ![n, e]⟩ .f32) (s : FVec Ideal ⟨2, ![n, 1]⟩ .f32) (b : FVec Ideal ⟨2, ![1, e]⟩ .f32) :
    FVec Ideal ⟨2, ![n, e]⟩ .f32 :=
  fun i => max (g (ix2 (i 0) (i 1)) * s (ix2 (i 0) (0 : Fin 1)) + b (ix2 (0 : Fin 1) (i 1))) (Ideal.ofBits .f32 0x00000000#32)

theorem fin_apply {n e : ℕ} (g : FVec Ideal ⟨2, ![n, e]⟩ .f32) (s : FVec Ideal ⟨2, ![n, 1]⟩ .f32) (b : FVec Ideal ⟨2, ![1, e]⟩ .f32)
    (p : Fin n) (q : Fin e) :
    fin g s b (ix2 p q) = max (g (ix2 p q) * s (ix2 p (0 : Fin 1)) + b (ix2 (0 : Fin 1) q)) (Ideal.ofBits .f32 0x00000000#32) := rfl

end Cert.GraphConv

end
-- ==== Proof.Payloads.lean ====
/-
  What each kernel body stores, read at an index over the extended reals.

  The projection body, on a block of feature rows x0, the block's column of scales x1 and the whole weight matrix x2, stores at
  (a, q) the sum over k of (x0 (a, k) * x1 (a, 0)) * x2 (k, q): the narrowing of both operands to bf16 is the identity on the
  extended reals, and the matrix unit's product into a zero accumulator is the plain sum of products.
  The closing body, on a block x0, the block's column of scales x1 and the bias row x2, stores at (a, q) the larger of
  x0 (a, q) * x1 (a, 0) + x2 (0, q) and zero.
-/
import proofs.«128183_j57664230916482_1_alg».proof.Proof.Gen.KernelIdeal.Skeleton
import proofs.«128183_j57664230916482_1_alg».proof.Proof.LibMatmul
import proofs.«128183_j57664230916482_1_alg».proof.Proof.Spec

noncomputable section

namespace Cert.KernelIdeal.Pay

open Cert.KernelIdeal Cert.KernelIdeal.Gen Idealize.ShloMosaic Idealize.ShloMosaic.ValueIdx Cert.GraphConv

/-- The printed dimension numbers of the body's product are the plain M×K by K×N ones. -/
theorem dot_plain : dot_S5000x256_S256x64_S5000x64_1_0_0_1_n_n = DotDims.plain 5000 256 64 := rfl

/-- The projection body's store at (a, q). -/
theorem proj_pay_apply (x0 : Vec Ideal S5000x256 .f32) (x1 : Vec Ideal S5000x1 .f32) (x2 : Vec Ideal S256x64 .f32)
    (a : Fin 5000) (q : Fin 64) :
    k0_pay1 (F := Ideal) x0 x1 x2 (ix2 a q) = ∑ k : Fin 256, (x0 (ix2 a k) * x1 (ix2 a (0 : Fin 1))) * x2 (ix2 k q) := by
  unfold k0_pay1
  rw [dot_plain]
  refine (Cert.Matmul.matmul_plain_apply none _ _ a q).trans ?_
  refine Finset.sum_congr rfl fun k _ => ?_
  rw [truncf_apply, truncf_apply, mulf_apply, shapeCast_self, broadcastTo_col_apply]

/-- The closing body's store at (a, q). -/
theorem fin_pay_apply (x0 : Vec Ideal S5000x64 .f32) (x1 : Vec Ideal S5000x1 .f32) (x2 : Vec Ideal S1x64 .f32)
    (a : Fin 5000) (q : Fin 64) :
    k1_pay1 (F := Ideal) x0 x1 x2 (ix2 a q)
      = max (x0 (ix2 a q) * x1 (ix2 a (0 : Fin 1)) + x2 (ix2 (0 : Fin 1) q)) (Ideal.ofBits .f32 0x00000000#32) := by
  unfold k1_pay1
  rw [maximumf_apply, addf_apply, mulf_apply, shapeCast_self, shapeCast_self, shapeCast_self, broadcastTo_col_apply,
    broadcastTo_1b_ab_apply]
  rfl

end Cert.KernelIdeal.Pay

end
-- ==== Proof.Region0.lean ====
/-
  The projection region, read as one array.

  At grid point t the region reads rows 5000 t … 5000 t + 4999 of the features and of the scale column, and the whole weight
  matrix, and writes back rows 5000 t … 5000 t + 4999 of the result; the twenty row blocks fill the result array.  Entry (p, q)
  of a written block is the sum over k of (h (p, k) * s (p, 0)) * W (k, q) of the arrays as the region finds them, so the array
  the region leaves is `proj` of those arrays.
-/
import proofs.«128183_j57664230916482_1_alg».proof.Proof.Gen.KernelIdeal.Frame
import proofs.«128183_j57664230916482_1_alg».proof.Proof.Payloads
import Idealize.ShloMosaic.Lib.Pipeline.Value

set_option maxRecDepth 16384

noncomputable section

namespace Cert.KernelIdeal.Region0

open Cert.KernelIdeal Cert.KernelIdeal.Gen Cert.KernelIdeal.Pay Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows are at block (t, 0), the weights at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 20 := by have h := t.isLt; have hN : cfg0.N = 20 := N_0; omega

/-- Row a of the feature block at point t is row 5000 t + a of the features. -/
theorem hblk_apply (c : Dev nD) (t : Fin cfg0.N) (a : Fin 5000) (k : Fin 256) (P : Fin 100000) (hP : P.val = 5000 * t.val + a.val) :
    (iblk0 V c 0 t : Vec Ideal S5000x256 .f32) (ix2 a k) = (V c main_arg0 : S100000x256.Idx → EReal) (ix2 P k) := by
  obtain ⟨e00, e01, -⟩ := idx_facts t
  unfold iblk0
  rw [View.read_apply]
  show V c main_arg0 _ = V c main_arg0 _
  congr 1
  funext ax
  apply Fin.ext
  match ax with
  | ⟨0, _⟩ => show win0_0.index t 0 * 5000 + 1 * a.val = P.val; rw [e00, hP]; omega
  | ⟨1, _⟩ => show win0_0.index t 1 * 256 + 1 * k.val = k.val; rw [e01]; omega

/-- Row a of the scale block at point t is row 5000 t + a of the scale column. -/
theorem sblk_apply (c : Dev nD) (t : Fin cfg0.N) (a : Fin 5000) (P : Fin 100000) (hP : P.val = 5000 * t.val + a.val) :
    (iblk0 V c 1 t : Vec Ideal S5000x1 .f32) (ix2 a (0 : Fin 1)) = (V c main_v13 : S100000x1.Idx → EReal) (ix2 P (0 : Fin 1)) := by
  obtain ⟨-, -, e10, e11, -⟩ := idx_facts t
  unfold iblk0
  rw [View.read_apply]
  show V c main_v13 _ = V c main_v13 _
  congr 1
  funext ax
  apply Fin.ext
  match ax with
  | ⟨0, _⟩ => show win0_1.index t 0 * 5000 + 1 * a.val = P.val; rw [e10, hP]; omega
  | ⟨1, _⟩ => show win0_1.index t 1 * 1 + 1 * 0 = 0; rw [e11]

/-- The weight window's one block is the whole matrix. -/
theorem wblk_apply (c : Dev nD) (t : Fin cfg0.N) (k : Fin 256) (q : Fin 64) :
    (iblk0 V c 2 t : Vec Ideal S256x64 .f32) (ix2 k q) = (V c main_arg3 : S256x64.Idx → EReal) (ix2 k q) := by
  obtain ⟨-, -, -, -, e20, e21, -⟩ := idx_facts t
  unfold iblk0
  rw [View.read_apply]
  show V c main_arg3 _ = V c main_arg3 _
  congr 1
  funext ax
  apply Fin.ext
  match ax with
  | ⟨0, _⟩ => show win0_2.index t 0 * 256 + 1 * k.val = k.val; rw [e20]; omega
  | ⟨1, _⟩ => show win0_2.index t 1 * 64 + 1 * q.val = q.val; rw [e21]; omega

/-- Entry (a, q) of the result block at point t sits at (5000 t + a, q) of the result array. -/
theorem out_emb (t : Fin cfg0.N) (a : Fin 5000) (q : Fin 64) (P : Fin 100000) (hP : P.val = 5000 * t.val + a.val) :
    ((cfg0.win 3).blk t).view.emb (ix2 a q : S5000x64.Idx) = (ix2 P q : S100000x64.Idx) := by
  obtain ⟨-, -, -, -, -, -, e30, e31⟩ := idx_facts t
  funext ax
  apply Fin.ext
  match ax with
  | ⟨0, _⟩ => show win0_3.index t 0 * 5000 + 1 * a.val = P.val; rw [e30, hP]; omega
  | ⟨1, _⟩ => show win0_3.index t 1 * 64 + 1 * q.val = q.val; rw [e31]; omega

/-- What point t writes back is block t of `proj` of the arrays as the region finds them. -/
theorem flushed_eq (c : Dev nD) (t : Fin cfg0.N) :
    (dat0 V c).flushed 3 t = ((cfg0.win 3).blk t).view.read (Elt Ideal) (proj (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x64) hz]
  funext j
  obtain ⟨a, q, rfl⟩ : ∃ (a : Fin 5000) (q : Fin 64), j = ix2 a q := ⟨j 0, j 1, eq_ix2 j⟩
  have ht := t_lt t
  have hlt : 5000 * t.val + a.val < 100000 := by have := a.isLt; omega
  rw [View.read_apply, out_emb t a q ⟨5000 * t.val + a.val, hlt⟩ rfl, proj_apply]
  refine (proj_pay_apply _ _ _ a q).trans ?_
  refine Finset.sum_congr rfl fun k _ => ?_
  rw [hblk_apply V c t a k ⟨5000 * t.val + a.val, hlt⟩ rfl, sblk_apply V c t a ⟨5000 * t.val + a.val, hlt⟩ rfl, wblk_apply V c t k q]

/-- An index of the result array lies in point t's block iff its row is one of the block's 5000. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- Every index of the result array is in some written block: row p in block p / 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_blk]
  obtain ⟨-, -, -, -, -, -, e30, e31⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e31]; omega

/-- THE ARRAY the projection region leaves: `proj` of the features, the scale column and the weights as it found them. -/
theorem final (c : Dev nD) :
    (dat0 V c).arrAt 3 cfg0.N = proj (V c main_arg0) (V c main_v13) (V c main_arg3) :=
  (dat0 V c).arrAt_eq_of_cover 3 _ (fun t _ => flushed_eq V c t) cover

end Cert.KernelIdeal.Region0

end
-- ==== Proof.Region1.lean ====
/-
  The closing region, read as one array.

  At grid point t the region reads rows 5000 t … 5000 t + 4999 of the aggregated features and of the scale column, and the
  bias row, and writes back rows 5000 t … 5000 t + 4999 of the result; the twenty row blocks fill the result array.  Entry
  (p, q) of a written block is the larger of g (p, q) * s (p, 0) + b (0, q) and zero of the arrays as the region finds them, so
  the array the region leaves is `fin` of those arrays.
-/
import proofs.«128183_j57664230916482_1_alg».proof.Proof.Gen.KernelIdeal.Frame
import proofs.«128183_j57664230916482_1_alg».proof.Proof.Payloads
import Idealize.ShloMosaic.Lib.Pipeline.Value

set_option maxRecDepth 16384

noncomputable section

namespace Cert.KernelIdeal.Region1

open Cert.KernelIdeal Cert.KernelIdeal.Gen Cert.KernelIdeal.Pay Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows are at block (t, 0), the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 20 := by have h := t.isLt; have hN : cfg1.N = 20 := N_1; omega

/-- Row a of the aggregate's block at point t is row 5000 t + a of the aggregate. -/
theorem gblk_apply (c : Dev nD) (t : Fin cfg1.N) (a : Fin 5000) (q : Fin 64) (P : Fin 100000) (hP : P.val = 5000 * t.val + a.val) :
    (iblk1 V c 0 t : Vec Ideal S5000x64 .f32) (ix2 a q) = (V c main_v24 : S100000x64.Idx → EReal) (ix2 P q) := by
  obtain ⟨e00, e01, -⟩ := idx_facts t
  unfold iblk1
  rw [View.read_apply]
  show V c main_v24 _ = V c main_v24 _
  congr 1
  funext ax
  apply Fin.ext
  match ax with
  | ⟨0, _⟩ => show win1_0.index t 0 * 5000 + 1 * a.val = P.val; rw [e00, hP]; omega
  | ⟨1, _⟩ => show win1_0.index t 1 * 64 + 1 * q.val = q.val; rw [e01]; omega

/-- Row a of the scale block at point t is row 5000 t + a of the scale column. -/
theorem sblk_apply (c : Dev nD) (t : Fin cfg1.N) (a : Fin 5000) (P : Fin 100000) (hP : P.val = 5000 * t.val + a.val) :
    (iblk1 V c 1 t : Vec Ideal S5000x1 .f32) (ix2 a (0 : Fin 1)) = (V c main_v25 : S100000x1.Idx → EReal) (ix2 P (0 : Fin 1)) := by
  obtain ⟨-, -, e10, e11, -⟩ := idx_facts t
  unfold iblk1
  rw [View.read_apply]
  show V c main_v25 _ = V c main_v25 _
  congr 1
  funext ax
  apply Fin.ext
  match ax with
  | ⟨0, _⟩ => show win1_1.index t 0 * 5000 + 1 * a.val = P.val; rw [e10, hP]; omega
  | ⟨1, _⟩ => show win1_1.index t 1 * 1 + 1 * 0 = 0; rw [e11]

/-- The bias window's one block is the whole row. -/
theorem bblk_apply (c : Dev nD) (t : Fin cfg1.N) (q : Fin 64) :
    (iblk1 V c 2 t : Vec Ideal S1x64 .f32) (ix2 (0 : Fin 1) q) = (V c main_v26 : S1x64.Idx → EReal) (ix2 (0 : Fin 1) q) := by
  obtain ⟨-, -, -, -, e20, e21, -⟩ := idx_facts t
  unfold iblk1
  rw [View.read_apply]
  show V c main_v26 _ = V c main_v26 _
  congr 1
  funext ax
  apply Fin.ext
  match ax with
  | ⟨0, _⟩ => show win1_2.index t 0 * 1 + 1 * 0 = 0; rw [e20]
  | ⟨1, _⟩ => show win1_2.index t 1 * 64 + 1 * q.val = q.val; rw [e21]; omega

/-- Entry (a, q) of the result block at point t sits at (5000 t + a, q) of the result array. -/
theorem out_emb (t : Fin cfg1.N) (a : Fin 5000) (q : Fin 64) (P : Fin 100000) (hP : P.val = 5000 * t.val + a.val) :
    ((cfg1.win 3).blk t).view.emb (ix2 a q : S5000x64.Idx) = (ix2 P q : S100000x64.Idx) := by
  obtain ⟨-, -, -, -, -, -, e30, e31⟩ := idx_facts t
  funext ax
  apply Fin.ext
  match ax with
  | ⟨0, _⟩ => show win1_3.index t 0 * 5000 + 1 * a.val = P.val; rw [e30, hP]; omega
  | ⟨1, _⟩ => show win1_3.index t 1 * 64 + 1 * q.val = q.val; rw [e31]; omega

/-- What point t writes back is block t of `fin` of the arrays as the region finds them. -/
theorem flushed_eq (c : Dev nD) (t : Fin cfg1.N) :
    (dat1 V c).flushed 3 t = ((cfg1.win 3).blk t).view.read (Elt Ideal) (fin (V c main_v24) (V c main_v25) (V c main_v26)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  funext j
  obtain ⟨a, q, rfl⟩ : ∃ (a : Fin 5000) (q : Fin 64), j = ix2 a q := ⟨j 0, j 1, eq_ix2 j⟩
  have ht := t_lt t
  have hlt : 5000 * t.val + a.val < 100000 := by have := a.isLt; omega
  rw [View.read_apply, out_emb t a q ⟨5000 * t.val + a.val, hlt⟩ rfl, fin_apply]
  refine (fin_pay_apply _ _ _ a q).trans ?_
  rw [gblk_apply V c t a q ⟨5000 * t.val + a.val, hlt⟩ rfl, sblk_apply V c t a ⟨5000 * t.val + a.val, hlt⟩ rfl, bblk_apply V c t q]
  exact (cast_eq _ _).symm

/-- An index of the result array lies in point t's block iff its row is one of the block's 5000. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- Every index of the result array is in some written block: row p in block p / 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_3 _, ?_⟩
  rw [mem_blk]
  obtain ⟨-, -, -, -, -, -, e30, e31⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e31]; omega

/-- THE ARRAY the closing region leaves: `fin` of the aggregate, the scale column and the bias row as it found them. -/
theorem final (c : Dev nD) :
    (dat1 V c).arrAt 3 cfg1.N = fin (V c main_v24) (V c main_v25) (V c main_v26) :=
  (dat1 V c).arrAt_eq_of_cover 3 _ (fun t _ => flushed_eq V c t) cover

end Cert.KernelIdeal.Region1

end
-- ==== Proof.ValueDef.lean ====
/-
  The idealized kernel's result as one function of its five arguments.

  `norm x` is the symmetric normalisation of a list of edge endpoints: count how often each node occurs (a scatter-add of ones
  into zeros), raise the count to at least one, and take it to the power -1/2.  `agg x1 x2 y` moves rows of `y` along the edges:
  gather row x1 e (a negative index counted from the end) for every edge e, and scatter-add it into row x2 e of zeros.
  `value` is fin (agg src dst (proj h (norm src as a column) W)) (norm dst as a column) (b as a row).
-/
import proofs.«128183_j57664230916482_1_alg».proof.Proof.Gen.KernelIdeal
import proofs.«128183_j57664230916482_1_alg».proof.Proof.Spec

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

/-- The symmetric normalisation of a list of edge endpoints: (max 1 (number of occurrences))^(-1/2), per node. -/
def norm (x : IVec S1600000 32) : FVec Ideal S100000 .f32 :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 x)
        (broadcastInDim S1600000 ![] bcast_S_S1600000 (constant (F := Ideal) S_ .f32 0x3F800000#32))))
    (broadcastInDim S100000 ![] bcast_S_S100000 (constant (F := Ideal) S_ .f32 0xBF000000#32))

/-- Rows of `y` moved along the edges: row x1 e gathered for every edge e, added into row x2 e of zeros. -/
def agg (x1 x2 : IVec S1600000 32) (y : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x2)
    (Host.gather gather_S100000x64_S1600000x1_S1600000x64_1_0_n_n_0_1_164 y
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- The whole program's value. -/
def value (x0 : FVec Ideal S100000x256 .f32) (x1 x2 : IVec S1600000 32) (x3 : FVec Ideal S256x64 .f32) (x4 : FVec Ideal S64 .f32) :
    FVec Ideal S100000x64 .f32 :=
  fin (agg x1 x2 (proj x0 (shapeCast S100000x1 (norm x1) shapeCasts_S100000_S100000x1) x3))
    (shapeCast S100000x1 (norm x2) shapeCasts_S100000_S100000x1) (shapeCast S1x64 x4 shapeCasts_S64_S1x64)

end Cert.KernelIdeal.Whole

end
-- ==== Proof.HostBefore.lean ====
/-
  The host stretches before the projection region, read stretch by stretch from any contents of the buffers, and composed:
  they leave the source endpoints' normalisation, re-laid as a column, in the region's scale operand, the destination
  endpoints' normalisation in a buffer the closing region's operand is later made from, and the arguments as they were.
  Stretch 0 counts the occurrences of each node among the source and among the destination endpoints; stretches 1 and 3 raise a
  count to at least one; stretches 2 and 4 take the power -1/2, and stretch 4 re-lays the source normalisation as a column.
-/
import proofs.«128183_j57664230916482_1_alg».proof.Proof.Gen.KernelIdeal.Launch
import proofs.«128183_j57664230916482_1_alg».proof.Proof.ValueDef
import Idealize.ShloMosaic.Lib.StableHlo.Run

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

variable (W : Valuation τ sig (Elt Ideal))

/-- The number of occurrences of each node in a list of endpoints: ones scatter-added into zeros. -/
abbrev count (x : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x)
    (broadcastInDim S1600000 ![] bcast_S_S1600000 (constant (F := Ideal) S_ .f32 0x3F800000#32))

/-! ## Stretch 0 -/
theorem s0_v3 : after hostOps0 W (Proc.devRef .tc main_v3) = count (W (Proc.devRef .tc main_arg1)) := by after_results
theorem s0_v6 : after hostOps0 W (Proc.devRef .tc main_v6) = count (W (Proc.devRef .tc main_arg2)) := by after_results
theorem s0_cst2 : after hostOps0 W (Proc.devRef .tc main_cst_2) = constant (F := Ideal) S_ .f32 0x3F800000#32 := by after_results

/-! ## Stretch 1: the out-degree raised to at least one -/
theorem s1_v7 : (after hostOps0_1 W (Proc.devRef .tc main_v7) : FVec Ideal S100000 .f32)
    = maximumf (F := Ideal) (φ := .f32) (broadcastInDim S100000 ![] bcast_S_S100000 (id (W (Proc.devRef .tc main_cst_2) : FVec Ideal S_ .f32)))
        (W (Proc.devRef .tc main_v3) : FVec Ideal S100000 .f32) := by
  after_results_simp
  rfl
theorem s1_v6 : after hostOps0_1 W (Proc.devRef .tc main_v6) = W (Proc.devRef .tc main_v6) := by after_results_simp

/-! ## Stretch 2 -/
theorem s2_v9 : after hostOps0_2 W (Proc.devRef .tc main_v9)
    = Host.powf (F := Ideal) (W (Proc.devRef .tc main_v7))
        (broadcastInDim S100000 ![] bcast_S_S100000 (constant (F := Ideal) S_ .f32 0xBF000000#32)) := by after_results
theorem s2_cst4 : after hostOps0_2 W (Proc.devRef .tc main_cst_4) = constant (F := Ideal) S_ .f32 0x3F800000#32 := by after_results
theorem s2_v6 : after hostOps0_2 W (Proc.devRef .tc main_v6) = W (Proc.devRef .tc main_v6) := by after_results

/-! ## Stretch 3: the in-degree raised to at least one -/
theorem s3_v10 : (after hostOps0_3 W (Proc.devRef .tc main_v10) : FVec Ideal S100000 .f32)
    = maximumf (F := Ideal) (φ := .f32) (broadcastInDim S100000 ![] bcast_S_S100000 (id (W (Proc.devRef .tc main_cst_4) : FVec Ideal S_ .f32)))
        (W (Proc.devRef .tc main_v6) : FVec Ideal S100000 .f32) := by
  after_results_simp
  rfl
theorem s3_v9 : after hostOps0_3 W (Proc.devRef .tc main_v9) = W (Proc.devRef .tc main_v9) := by after_results_simp

/-! ## Stretch 4 -/
theorem s4_v12 : after hostOps0_4 W (Proc.devRef .tc main_v12)
    = Host.powf (F := Ideal) (W (Proc.devRef .tc main_v10))
        (broadcastInDim S100000 ![] bcast_S_S100000 (constant (F := Ideal) S_ .f32 0xBF000000#32)) := by after_results
theorem s4_v13 : after hostOps0_4 W (Proc.devRef .tc main_v13)
    = shapeCast S100000x1 (W (Proc.devRef .tc main_v9)) shapeCasts_S100000_S100000x1 := by
  after_results
  rfl

/-! ## The five stretches as one fold -/

/-- The five stretches before the projection region, as one fold. -/
abbrev beforeProj (W : Valuation τ sig (Elt Ideal)) : Valuation τ sig (Elt Ideal) :=
  after hostOps0_4 (after hostOps0_3 (after hostOps0_2 (after hostOps0_1 (after hostOps0 W))))

theorem before_arg0 : beforeProj W (Proc.devRef .tc main_arg0) = W (Proc.devRef .tc main_arg0) := by after_results_simp
theorem before_arg1 : beforeProj W (Proc.devRef .tc main_arg1) = W (Proc.devRef .tc main_arg1) := by after_results_simp
theorem before_arg2 : beforeProj W (Proc.devRef .tc main_arg2) = W (Proc.devRef .tc main_arg2) := by after_results_simp
theorem before_arg3 : beforeProj W (Proc.devRef .tc main_arg3) = W (Proc.devRef .tc main_arg3) := by after_results_simp
theorem before_arg4 : beforeProj W (Proc.devRef .tc main_arg4) = W (Proc.devRef .tc main_arg4) := by after_results_simp

/-- The scale column the projection region finds: the source endpoints' normalisation, as a column. -/
theorem before_v13 :
    beforeProj W (Proc.devRef .tc main_v13) = shapeCast S100000x1 (norm (W (Proc.devRef .tc main_arg1))) shapeCasts_S100000_S100000x1 := by
  unfold norm
  show after hostOps0_4 (after hostOps0_3 (after hostOps0_2 (after hostOps0_1 (after hostOps0 W)))) (Proc.devRef .tc main_v13) = _
  rw [s4_v13, s3_v9, s2_v9, s1_v7, s0_cst2, s0_v3]

/-- The destination endpoints' normalisation. -/
theorem before_v12 : beforeProj W (Proc.devRef .tc main_v12) = norm (W (Proc.devRef .tc main_arg2)) := by
  unfold norm
  show after hostOps0_4 (after hostOps0_3 (after hostOps0_2 (after hostOps0_1 (after hostOps0 W)))) (Proc.devRef .tc main_v12) = _
  rw [s4_v12, s3_v10, s2_cst4, s2_v6, s1_v6, s0_v6]

end Cert.KernelIdeal.Whole

end
-- ==== Proof.HostBetween.lean ====
/-
  The host stretch between the two kernel regions, read operation by operation from any contents of the buffers: it leaves the
  edge aggregation of the projection's result in the closing region's first operand, and the destination scale and the bias,
  re-laid as a column and as a row, in the other two.
-/
import proofs.«128183_j57664230916482_1_alg».proof.Proof.Gen.KernelIdeal.Launch
import proofs.«128183_j57664230916482_1_alg».proof.Proof.ValueDef
import Idealize.ShloMosaic.Lib.StableHlo.Run

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

theorem between_v24 (W : Valuation τ sig (Elt Ideal)) :
    after hostOps1 W (Proc.devRef .tc main_v24)
      = agg (W (Proc.devRef .tc main_arg1)) (W (Proc.devRef .tc main_arg2)) (W (Proc.devRef .tc main_v14)) := by
  unfold agg
  after_results

theorem between_v25 (W : Valuation τ sig (Elt Ideal)) :
    after hostOps1 W (Proc.devRef .tc main_v25) = shapeCast S100000x1 (W (Proc.devRef .tc main_v12)) shapeCasts_S100000_S100000x1 := by
  after_results
  rfl

theorem between_v26 (W : Valuation τ sig (Elt Ideal)) :
    after hostOps1 W (Proc.devRef .tc main_v26) = shapeCast S1x64 (W (Proc.devRef .tc main_arg4)) shapeCasts_S64_S1x64 := by
  after_results
  rfl

end Cert.KernelIdeal.Whole

end
-- ==== Proof.KernelValue.lean ====
/-
  The idealized kernel's result array after the run is `value` of its five arguments.

  The contents of the buffers at the boundaries of the program's segments are a fold from the launch memory.  Walking it back
  from the result array: the closing region leaves `fin` of its three operand arrays; the stretch between the regions made those
  from the projection region's result (by `agg`), from the destination normalisation and from the bias; the projection
  region left `proj` of the features, the source scale column and the weights; and the stretches before it computed the two
  normalisations from the endpoint lists and left the arguments alone.
-/
import proofs.«128183_j57664230916482_1_alg».proof.Proof.Gen.KernelIdeal.Frame
import proofs.«128183_j57664230916482_1_alg».proof.Proof.Region0
import proofs.«128183_j57664230916482_1_alg».proof.Proof.Region1
import proofs.«128183_j57664230916482_1_alg».proof.Proof.HostBefore
import proofs.«128183_j57664230916482_1_alg».proof.Proof.HostBetween

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch contents of a buffer are the launch memory's. -/
theorem W0_read (c : Dev nD) (b : Ref sig .tc) : W0 m ρ c (Proc.devRef .tc b) = m ((c : Thread nD τ).loc b) := rfl

/-! ## At the projection region's entry -/

theorem W5_arg0 (c : Dev nD) : W5 m ρ c (Proc.devRef .tc main_arg0) = m ((c : Thread nD τ).loc main_arg0) :=
  (before_arg0 (W0 m ρ c)).trans (W0_read m ρ c main_arg0)
theorem W5_arg1 (c : Dev nD) : W5 m ρ c (Proc.devRef .tc main_arg1) = m ((c : Thread nD τ).loc main_arg1) :=
  (before_arg1 (W0 m ρ c)).trans (W0_read m ρ c main_arg1)
theorem W5_arg2 (c : Dev nD) : W5 m ρ c (Proc.devRef .tc main_arg2) = m ((c : Thread nD τ).loc main_arg2) :=
  (before_arg2 (W0 m ρ c)).trans (W0_read m ρ c main_arg2)
theorem W5_arg3 (c : Dev nD) : W5 m ρ c (Proc.devRef .tc main_arg3) = m ((c : Thread nD τ).loc main_arg3) :=
  (before_arg3 (W0 m ρ c)).trans (W0_read m ρ c main_arg3)
theorem W5_arg4 (c : Dev nD) : W5 m ρ c (Proc.devRef .tc main_arg4) = m ((c : Thread nD τ).loc main_arg4) :=
  (before_arg4 (W0 m ρ c)).trans (W0_read m ρ c main_arg4)

theorem W5_v13 (c : Dev nD) :
    W5 m ρ c (Proc.devRef .tc main_v13) = shapeCast S100000x1 (norm (m ((c : Thread nD τ).loc main_arg1))) shapeCasts_S100000_S100000x1 :=
  (before_v13 (W0 m ρ c)).trans (by rw [W0_read])

theorem W5_v12 (c : Dev nD) : W5 m ρ c (Proc.devRef .tc main_v12) = norm (m ((c : Thread nD τ).loc main_arg2)) :=
  (before_v12 (W0 m ρ c)).trans (by rw [W0_read])

/-! ## The projection region -/

/-- What the projection region leaves in its result array, over its entry contents. -/
theorem W6_v14_entry (c : Dev nD) :
    W6 m ρ c (Proc.devRef .tc main_v14)
      = proj (W5 m ρ c (Proc.devRef .tc main_arg0)) (W5 m ρ c (Proc.devRef .tc main_v13)) (W5 m ρ c (Proc.devRef .tc main_arg3)) :=
  (W6_arr m ρ c 3).trans (Region0.final (V5 m ρ) c)

theorem W6_v14 (c : Dev nD) :
    W6 m ρ c (Proc.devRef .tc main_v14)
      = proj (m ((c : Thread nD τ).loc main_arg0))
          (shapeCast S100000x1 (norm (m ((c : Thread nD τ).loc main_arg1))) shapeCasts_S100000_S100000x1) (m ((c : Thread nD τ).loc main_arg3)) := by
  rw [W6_v14_entry, W5_arg0, W5_v13, W5_arg3]

/-- A buffer the projection region does not stage keeps its contents across it. -/
theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_v12 (c : Dev nD) : W6 m ρ c (Proc.devRef .tc main_v12) = norm (m ((c : Thread nD τ).loc main_arg2)) :=
  (W6_of_ne m ρ c main_v12 (by decide)).trans (W5_v12 m ρ c)

/-! ## The closing region, and the whole program -/

/-- What the closing region leaves in the result array, over its entry contents. -/
theorem W8_v27_entry (c : Dev nD) :
    W8 m ρ c (Proc.devRef .tc main_v27)
      = fin (W7 m ρ c (Proc.devRef .tc main_v24)) (W7 m ρ c (Proc.devRef .tc main_v25)) (W7 m ρ c (Proc.devRef .tc main_v26)) :=
  (W8_arr m ρ c 3).trans (Region1.final (V7 m ρ) c)

theorem W7_v24 (c : Dev nD) :
    W7 m ρ c (Proc.devRef .tc main_v24)
      = agg (m ((c : Thread nD τ).loc main_arg1)) (m ((c : Thread nD τ).loc main_arg2))
          (proj (m ((c : Thread nD τ).loc main_arg0))
            (shapeCast S100000x1 (norm (m ((c : Thread nD τ).loc main_arg1))) shapeCasts_S100000_S100000x1) (m ((c : Thread nD τ).loc main_arg3))) :=
  (between_v24 (W6 m ρ c)).trans (by rw [W6_arg1, W6_arg2, W6_v14])

theorem W7_v25 (c : Dev nD) :
    W7 m ρ c (Proc.devRef .tc main_v25) = shapeCast S100000x1 (norm (m ((c : Thread nD τ).loc main_arg2))) shapeCasts_S100000_S100000x1 :=
  (between_v25 (W6 m ρ c)).trans (by rw [W6_v12])

theorem W7_v26 (c : Dev nD) :
    W7 m ρ c (Proc.devRef .tc main_v26) = shapeCast S1x64 (m ((c : Thread nD τ).loc main_arg4)) shapeCasts_S64_S1x64 :=
  (between_v26 (W6 m ρ c)).trans (by rw [W6_arg4])

/-- THE RESULT ARRAY after the run is `value` of the five arguments. -/
theorem out_eq (c : Dev nD) :
    W8 m ρ c (Proc.devRef .tc main_v27)
      = value (m ((c : Thread nD τ).loc main_arg0)) (m ((c : Thread nD τ).loc main_arg1)) (m ((c : Thread nD τ).loc main_arg2))
          (m ((c : Thread nD τ).loc main_arg3)) (m ((c : Thread nD τ).loc main_arg4)) := by
  rw [W8_v27_entry, W7_v24, W7_v25, W7_v26]
  rfl

end Cert.KernelIdeal.Whole

end
-- ==== Proof.RefValue.lean ====
/-
  The reference computes `value` too.

  Its program is the same chain of host operations, with the projection as one product of the row-scaled features with the
  weights and the closing stage as array operations.  Entry (p, q) of its product is the sum over k of (h (p, k) * s p) * W (k, q)
  with s the source normalisation, which is `proj` at the column made of s; its edge aggregation is `agg` of that product; and
  entry (p, q) of its result is the larger of the aggregate at (p, q) times the destination normalisation of p plus b q and zero,
  which is `fin`.
-/
import proofs.«128183_j57664230916482_1_alg».proof.Proof.Gen.ReferenceIdeal.Read
import proofs.«128183_j57664230916482_1_alg».proof.Proof.ValueDef
import Idealize.ShloMosaic.Lib.ValueLayout

set_option maxRecDepth 16384

noncomputable section

namespace Cert.ReferenceIdeal.RefValue

open Cert.ReferenceIdeal Cert.ReferenceIdeal.Gen Cert.ReferenceIdeal.Read Cert.GraphConv
open Idealize.ShloMosaic Idealize.ShloMosaic.ValueIdx
open Cert.KernelIdeal.Whole (norm agg value)

/-- A vector of length a re-laid as an `[a, 1]` column reads, at `(i, u)`, the vector at `i`. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reference's two normalisations are `norm` of the source and of the destination endpoints. -/
theorem norm_src (x1 : IVec S1600000 32) : val_main_v9 (F := Ideal) x1 = norm x1 := rfl
theorem norm_dst (x2 : IVec S1600000 32) : val_main_v12 (F := Ideal) x2 = norm x2 := rfl

/-- The reference's edge aggregation is `agg` of its product. -/
theorem agg_ref (x0 : FVec Ideal S100000x256 .f32) (x1 x2 : IVec S1600000 32) (x3 : FVec Ideal S256x64 .f32) :
    val_main_v26 (F := Ideal) x0 x1 x2 x3 = agg x1 x2 (val_main_v16 (F := Ideal) x0 x1 x3) := rfl

/-- The reference's product is `proj` at the source normalisation as a column. -/
theorem proj_ref (x0 : FVec Ideal S100000x256 .f32) (x1 : IVec S1600000 32) (x3 : FVec Ideal S256x64 .f32) :
    val_main_v16 (F := Ideal) x0 x1 x3
      = proj x0 (shapeCast Cert.KernelIdeal.S100000x1 (norm x1) Cert.KernelIdeal.Gen.shapeCasts_S100000_S100000x1) x3 := by
  funext i
  obtain ⟨p, q, rfl⟩ : ∃ (p : Fin 100000) (q : Fin 64), i = ix2 p q := ⟨i 0, i 1, eq_ix2 i⟩
  rw [val_main_v16_apply, proj_apply]
  refine Finset.sum_congr rfl fun k _ => ?_
  have hl : lidx_main_v16 (ix2 p q) k = ix2 p k := funext fun a => Fin.ext (by match a with | ⟨0, _⟩ => rfl | ⟨1, _⟩ => rfl)
  have hr : ridx_main_v16 (ix2 p q) k = ix2 k q := funext fun a => Fin.ext (by match a with | ⟨0, _⟩ => rfl | ⟨1, _⟩ => rfl)
  have hs : idx_main_v13 (idx_main_v14 (ix2 p k)) = ix1 p := funext fun a => Fin.ext (by match a with | ⟨0, _⟩ => rfl)
  rw [hl, hr, val_main_v15_apply, val_main_v14_apply, val_main_v13_apply, hs, norm_src, shapeCast_col_apply]
  rfl

/-- THE REFERENCE'S RESULT is `value` of the five arguments. -/
theorem value_ref (x0 : FVec Ideal S100000x256 .f32) (x1 x2 : IVec S1600000 32) (x3 : FVec Ideal S256x64 .f32) (x4 : FVec Ideal S64 .f32) :
    val_main_v33 (F := Ideal) x0 x1 x2 x3 x4 = value x0 x1 x2 x3 x4 := by
  funext i
  obtain ⟨p, q, rfl⟩ : ∃ (p : Fin 100000) (q : Fin 64), i = ix2 p q := ⟨i 0, i 1, eq_ix2 i⟩
  have h1 : idx_main_v27 (idx_main_v28 (ix2 p q)) = ix1 p := funext fun a => Fin.ext (by match a with | ⟨0, _⟩ => rfl)
  have h2 : idx_main_v30 (idx_main_v31 (ix2 p q)) = ix1 q := funext fun a => Fin.ext (by match a with | ⟨0, _⟩ => rfl)
  unfold value
  rw [fin_apply, shapeCast_col_apply, shapeCast_a_1a_apply, val_main_v33_apply, val_main_v32_apply, val_main_v29_apply,
    val_main_v28_apply, val_main_v27_apply, val_main_v31_apply, val_main_v30_apply, val_main_call2_v0_apply,
    val_main_call2_cst_apply, h1, h2, norm_dst, agg_ref, proj_ref]
  rfl

end Cert.ReferenceIdeal.RefValue

end
-- ==== Proof.lean ====
/-
  A graph convolution with symmetric degree normalisation, D_in^(-1/2) A D_out^(-1/2) h W + b followed by max(·, 0), over
  100000 nodes and 1600000 edges given as lists of source and destination endpoints.

  The kernel program computes the two degree normalisations, the gather of projected rows along the edges and their
  scatter-add on the host, and runs two kernel regions over twenty blocks of 5000 rows each: the projection of the row-scaled
  features (the product's operands narrowed to bf16, which over the extended reals changes nothing) and the closing stage
  (scale each row, add the bias, keep the non-negative part).  The reference computes all of it with array operations.

  Over the extended reals both end with the same array (`value`): entry (p, q) of either projection is the sum over k of
  (h (p, k) * s p) * W (k, q) with s the source normalisation — the matrix unit's product into a zero accumulator and the host's
  dot_general are the same sum of products —; the edge aggregation is the same chain of host operations applied to it; and
  entry (p, q) of either result is the larger of the aggregate at (p, q) times the destination normalisation of p plus b q and
  zero.  No law of arithmetic beyond these readings is used, so the inputs' finiteness is not needed.

  Each kernel region leaves in its result array one function of the arrays it finds (its twenty row blocks fill the array);
  the kernel program's run is the generated launch over its segments with the result array read at the end, and the
  reference's run is its generated one.  The ideal pass rewrote no operation, so the kernel's idealization is its own text.
-/
import proofs.«128183_j57664230916482_1_alg».proof.Defs
import proofs.«128183_j57664230916482_1_alg».proof.Proof.Gen.Kernel
import proofs.«128183_j57664230916482_1_alg».proof.Proof.Gen.Kernel.Skeleton
import proofs.«128183_j57664230916482_1_alg».proof.Proof.Gen.Kernel.Launch
import proofs.«128183_j57664230916482_1_alg».proof.Proof.Gen.Kernel.Points
import proofs.«128183_j57664230916482_1_alg».proof.Proof.Gen.Kernel.Frame
import proofs.«128183_j57664230916482_1_alg».proof.Proof.Gen.KernelIdeal
import proofs.«128183_j57664230916482_1_alg».proof.Proof.Gen.KernelIdeal.Skeleton
import proofs.«128183_j57664230916482_1_alg».proof.Proof.Gen.KernelIdeal.Launch
import proofs.«128183_j57664230916482_1_alg».proof.Proof.Gen.KernelIdeal.Points
import proofs.«128183_j57664230916482_1_alg».proof.Proof.Gen.KernelIdeal.Frame
import proofs.«128183_j57664230916482_1_alg».proof.Proof.Gen.ReferenceIdeal
import proofs.«128183_j57664230916482_1_alg».proof.Proof.Gen.ReferenceIdeal.Run
import proofs.«128183_j57664230916482_1_alg».proof.Proof.Gen.ReferenceIdeal.Read
import proofs.«128183_j57664230916482_1_alg».proof.Proof.Gen.Pre_finite_inputs
import proofs.«128183_j57664230916482_1_alg».proof.Proof.RunOut
import proofs.«128183_j57664230916482_1_alg».proof.Proof.KernelValue
import proofs.«128183_j57664230916482_1_alg».proof.Proof.RefValue
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with `value` of the arguments in their result arrays. -/
theorem algebraic : Cert.algebraic_KernelIdeal_ReferenceIdeal := by
  intro m ρ m' ρ' _ hagree
  refine ⟨fun c => Cert.KernelIdeal.Whole.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.out_eq m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v33_eq _ _ _ _ _).trans (Cert.ReferenceIdeal.RefValue.value_ref _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
